-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S800000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩

abbrev nBuf : Space → Nat
  | .hbm => 95
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S850000x1, .f32⟩
  | .hbm, ⟨59, _⟩ => ⟨S50000x128, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x128, .f32⟩
  | .hbm, ⟨86, _⟩ => ⟨S850000x128, .f32⟩
  | .hbm, ⟨87, _⟩ => ⟨S850000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S1x128, .f32⟩
  | .hbm, ⟨93, _⟩ => ⟨S1x128, .f32⟩
  | .hbm, ⟨94, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S50000x128.size a
  hwx2_4 : ∀ i : grid2.Coords, EltTy.bits .f32 = 32 ∨ (Rect.block (s := S50000x128) S10000x128.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S50000x128, .f32⟩
  | .hbm, ⟨59, _⟩ => ⟨S850000x1, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S850000x1, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x128, .f32⟩
  | .hbm, ⟨92, _⟩ => ⟨S850000x128, .f32⟩
  | .hbm, ⟨93, _⟩ => ⟨S850000x128, .f32⟩
  | .hbm, ⟨94, _⟩ => ⟨S_, .f32⟩
  | .hbm, ⟨95, _⟩ => ⟨S50000x128, .f32⟩
  | .hbm, ⟨96, _⟩ => ⟨S850000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call3_cst : Ref sig .tc := ⟨.hbm, 101, rfl⟩
abbrev main_call3_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Dense.lean ====
/-
  The three dense layers of the two-layer graph convolution, as functions of whole arrays over the extended reals.

  Every layer acts on a node-feature matrix `A` of 50000 rows and 128 columns, row by row:
    * `proj A W`      : entry `(r, q)` is `∑ k, A (r, k) * W (k, q)`                       — the projection `A · W`;
    * `biasRelu A b`  : entry `(r, q)` is `max (A (r, q) + b (0, q)) 0`                    — add the bias row, then the rectifier;
    * `addRow A b`    : entry `(r, q)` is `A (r, q) + b (0, q)`                            — add a bias row.
  The bias is a one-row matrix, laid along every row.
-/
import Idealize.ShloMosaic.Lib.ValueIdx
import Idealize.ShloMosaic.PureOps.Ideal

noncomputable section

namespace Cert.Dense

open Idealize.ShloMosaic Idealize.ShloMosaic.ValueIdx

/-- Node features: 50000 nodes, 128 features each. -/
abbrev Nodes : Shape := ⟨2, ![50000, 128]⟩
/-- A square weight matrix. -/
abbrev Sq : Shape := ⟨2, ![128, 128]⟩
/-- A bias as a matrix of one row. -/
abbrev OneRow : Shape := ⟨2, ![1, 128]⟩

/-- The projection `A · W`. -/
def proj (A : Nodes.Idx → Ideal .f32) (W : Sq.Idx → Ideal .f32) : Nodes.Idx → Ideal .f32 :=
  fun i => ∑ k : Fin 128, A (ix2 (i 0) k) * W (ix2 k (i 1))

/-- The bias row added to every row, then the rectifier. -/
def biasRelu (A : Nodes.Idx → Ideal .f32) (b : OneRow.Idx → Ideal .f32) : Nodes.Idx → Ideal .f32 :=
  fun i => max (A i + b (ix2 0 (i 1))) 0

/-- The bias row added to every row. -/
def addRow (A : Nodes.Idx → Ideal .f32) (b : OneRow.Idx → Ideal .f32) : Nodes.Idx → Ideal .f32 :=
  fun i => A i + b (ix2 0 (i 1))

end Cert.Dense

end
-- ==== Proof.Layer0.lean ====
/-
  The first projection, `x · W1`, as the first pallas_call leaves it.

  The call runs over five grid points; point `t` stages rows `10000 t … 10000 t + 9999` of the input, the whole weight
  matrix, multiplies them (the bf16 casts are the identity over the extended reals, and the matrix unit's product into
  a zero accumulator is the plain sum over the contracted axis), and writes the 10000 rows back. Row `r` of the result
  therefore depends on row `r` of the input only, and the five blocks tile the array: the result is `proj` of the two
  arrays as the call finds them.
-/
import proofs.«121398_j78795470013089_1_alg».proof.Proof.Gen.KernelIdeal.Frame
import proofs.«121398_j78795470013089_1_alg».proof.Proof.LibPlainDot
import proofs.«121398_j78795470013089_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Layer0

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offs_zero : (![0, 0] : Fin 2 → Nat) = fun _ => 0 := funext fun a => by fin_cases a <;> rfl

/-- One block's product at an entry: the sum over the contracted axis of the block's row times the weight's column. -/
theorem block_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  exact Cert.Lib.PlainDot.matmul_zero_apply (M := 10000) (K := 128) (N := 128) none x0 x1 p q

/-- The printed index maps over the grid: the input's and the result's blocks move together down the rows, the
    weight is always its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `proj` of the two arrays as the call finds them. -/
theorem flushed_eq (c : Dev nD) (t : Fin cfg0.N) :
    (dat0 V c).flushed 2 t = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero offs_zero]
  simp only [View.ld_unit_zero (S := S10000x128) offs_zero, View.ld_unit_zero (S := S128x128) offs_zero]
  obtain ⟨e0, e1, e2, e3, e4, e5⟩ := idx_facts t
  funext j
  show k0_pay1 (iblk0 V c 0 t) (iblk0 V c 1 t) j = proj (V c main_arg0) (V c main_arg2) (((cfg0.win 2).blk t).view.emb j)
  have hj : j = ix2 (n0 := 10000) (n1 := 128) (j 0) (j 1) := eq_ix2 (n0 := 10000) (n1 := 128) j
  refine (congrArg (k0_pay1 (iblk0 V c 0 t) (iblk0 V c 1 t)) hj).trans ?_
  refine (block_apply (iblk0 V c 0 t) (iblk0 V c 1 t) (j 0) (j 1)).trans ?_
  unfold proj
  refine Finset.sum_congr rfl fun k _ => ?_
  have h0 : iblk0 V c 0 t (ix2 (n0 := 10000) (n1 := 128) (j 0) k)
      = V c main_arg0 (ix2 (n0 := 50000) (n1 := 128) ((((cfg0.win 2).blk t).view.emb j) 0) k) := by
    show V c main_arg0 (((cfg0.win 0).blk t).view.emb (ix2 (n0 := 10000) (n1 := 128) (j 0) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : iblk0 V c 1 t (ix2 (n0 := 128) (n1 := 128) k (j 1))
      = V c main_arg2 (ix2 (n0 := 128) (n1 := 128) k ((((cfg0.win 2).blk t).view.emb j) 1)) := by
    show V c main_arg2 (((cfg0.win 1).blk t).view.emb (ix2 (n0 := 128) (n1 := 128) k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v36).slice (win0_2.rect t)).set ↔ _
  rw [View.set_slice_whole, Rect.mem_set_unit]
  exact Iff.rfl

/-- The five blocks of 10000 rows tile the 50000 rows: row `r` is in the block of point `r / 10000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hlt : (i 0).val / 10000 < cfg0.N := by show (i 0).val / 10000 < grid0.N; rw [N_0]; omega
  obtain ⟨e0, e1, e2, e3, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 128 ≤ (i 1).val
      ∧ (i 1).val < win0_2.index ⟨(i 0).val / 10000, hlt⟩ (1 : Fin 2) * 128 + 128
    rw [e5]; omega

/-- THE ARRAY after the call: the projection of the two arrays as the call finds them. -/
theorem final (c : Dev nD) : (dat0 V c).arrAt 2 cfg0.N = proj (V c main_arg0) (V c main_arg2) :=
  (dat0 V c).arrAt_eq_of_cover 2 (proj (V c main_arg0) (V c main_arg2)) (fun t _ => flushed_eq V c t) cover

end Cert.KernelIdeal.Layer0

end
-- ==== Proof.Layer1.lean ====
/-
  The second projection, `relu (agg1 + b1) · W2`, as the second pallas_call leaves it.

  Point `t` of five stages rows `10000 t … 10000 t + 9999` of the aggregated features, the one-row bias and the whole
  weight matrix; adds the bias to every row, takes the maximum with zero, multiplies by the weights (the bf16 casts are
  the identity over the extended reals, the product into a zero accumulator the plain sum over the contracted axis),
  and writes the rows back. Row `r` of the result depends on row `r` of the input only, and the five blocks tile the
  array: the result is `proj (biasRelu · ·) ·` of the three arrays as the call finds them.
-/
import proofs.«121398_j78795470013089_1_alg».proof.Proof.Gen.KernelIdeal.Frame
import proofs.«121398_j78795470013089_1_alg».proof.Proof.LibPlainDot
import proofs.«121398_j78795470013089_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offs_zero : (![0, 0] : Fin 2 → Nat) = fun _ => 0 := funext fun a => by fin_cases a <;> rfl

/-- The rectified, biased block at an entry. -/
theorem act_apply (x0 : Vec Ideal S10000x128 .f32) (x1 : Vec Ideal S1x128 .f32) (p : Fin 10000) (k : Fin 128) :
    maximumf (F := Ideal) (addf (F := Ideal) (shapeCast S10000x128 x0 shapeCasts_S10000x128_S10000x128)
        (broadcastTo S10000x128 (shapeCast S1x128 x1 shapeCasts_S1x128_S1x128) broadcasts_S1x128_S10000x128))
      (broadcast S10000x128 (Scalar.ofBits (F := Ideal) .f32 0x00000000#32)) (ix2 p k)
      = max (x0 (ix2 p k) + x1 (ix2 (0 : Fin 1) k)) 0 := by
  simp only [shapeCast_self]
  show max (x0 (ix2 p k) + broadcastTo S10000x128 x1 broadcasts_S1x128_S10000x128 (ix2 p k)) (Ideal.ofBits .f32 0x00000000#32) = _
  rw [Ideal.ofBits_zero_f32, broadcastTo_apply x1 broadcasts_S1x128_S10000x128 (ix2 p k) (ix2 (0 : Fin 1) k) (fun a => by
    match a with
    | ⟨0, _⟩ => rfl
    | ⟨1, _⟩ => rfl)]

/-- One block's result at an entry: the sum over the contracted axis of the block's rectified, biased row times the
    weight's column. -/
theorem block_apply (x0 : Vec Ideal S10000x128 .f32) (x1 : Vec Ideal S1x128 .f32) (x2 : Vec Ideal S128x128 .f32)
    (p : Fin 10000) (q : Fin 128) :
    k1_pay1 x0 x1 x2 (ix2 p q) = ∑ k : Fin 128, max (x0 (ix2 p k) + x1 (ix2 (0 : Fin 1) k)) 0 * x2 (ix2 k q) := by
  unfold k1_pay1
  refine (Cert.Lib.PlainDot.matmul_zero_apply (M := 10000) (K := 128) (N := 128) none _ _ p q).trans ?_
  refine Finset.sum_congr rfl fun k _ => ?_
  exact congrArg (· * x2 (ix2 k q)) (act_apply x0 x1 p k)

/-- The printed index maps over the grid: the input's and the result's blocks move together down the rows; the bias
    and the weight are always their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the layer's function of the three arrays as the call finds them. -/
theorem flushed_eq (c : Dev nD) (t : Fin cfg1.N) :
    (dat1 V c).flushed 3 t = ((cfg1.win 3).blk t).view.read (Elt Ideal)
      (proj (biasRelu (V c main_v48) (V c main_v49)) (V c main_arg4)) := by
  show (cfg1.win 3).cut (grid1.coords t) ((dat1 V c).after 3 t) = _
  rw [after1_3]
  unfold out1_3
  rw [View.canon_unit_zero offs_zero]
  simp only [View.ld_unit_zero (S := S10000x128) offs_zero, View.ld_unit_zero (S := S128x128) offs_zero,
    View.ld_unit_zero (S := S1x128) offs_zero]
  obtain ⟨e0, e1, e2, e3, e4, e5, e6, e7⟩ := idx_facts t
  funext j
  show k1_pay1 (iblk1 V c 0 t) (iblk1 V c 1 t) (iblk1 V c 2 t) j
    = proj (biasRelu (V c main_v48) (V c main_v49)) (V c main_arg4) (((cfg1.win 3).blk t).view.emb j)
  have hj : j = ix2 (n0 := 10000) (n1 := 128) (j 0) (j 1) := eq_ix2 (n0 := 10000) (n1 := 128) j
  refine (congrArg (k1_pay1 (iblk1 V c 0 t) (iblk1 V c 1 t) (iblk1 V c 2 t)) hj).trans ?_
  refine (block_apply (iblk1 V c 0 t) (iblk1 V c 1 t) (iblk1 V c 2 t) (j 0) (j 1)).trans ?_
  unfold proj biasRelu
  refine Finset.sum_congr rfl fun k _ => ?_
  have h0 : iblk1 V c 0 t (ix2 (n0 := 10000) (n1 := 128) (j 0) k)
      = V c main_v48 (ix2 (n0 := 50000) (n1 := 128) ((((cfg1.win 3).blk t).view.emb j) 0) k) := by
    show V c main_v48 (((cfg1.win 0).blk t).view.emb (ix2 (n0 := 10000) (n1 := 128) (j 0) k)) = _
    refine congrArg (V c main_v48) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  have h1 : iblk1 V c 1 t (ix2 (n0 := 1) (n1 := 128) (0 : Fin 1) k)
      = V c main_v49 (ix2 (n0 := 1) (n1 := 128) (0 : Fin 1) k) := by
    show V c main_v49 (((cfg1.win 1).blk t).view.emb (ix2 (n0 := 1) (n1 := 128) (0 : Fin 1) k)) = _
    refine congrArg (V c main_v49) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have h2 : iblk1 V c 2 t (ix2 (n0 := 128) (n1 := 128) k (j 1))
      = V c main_arg4 (ix2 (n0 := 128) (n1 := 128) k ((((cfg1.win 3).blk t).view.emb j) 1)) := by
    show V c main_arg4 (((cfg1.win 2).blk t).view.emb (ix2 (n0 := 128) (n1 := 128) k (j 1))) = _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [h0, h1, h2]

/-- An index of the result array is in point `t`'s block iff each coordinate is in the block's range on its axis. -/
theorem mem_blk (t : Fin cfg1.N) (i : S50000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v50).slice (win1_3.rect t)).set ↔ _
  rw [View.set_slice_whole, Rect.mem_set_unit]
  exact Iff.rfl

/-- The five blocks of 10000 rows tile the 50000 rows: row `r` is in the block of point `r / 10000`. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hlt : (i 0).val / 10000 < cfg1.N := by show (i 0).val / 10000 < grid1.N; rw [N_1]; omega
  obtain ⟨e0, e1, e2, e3, e4, e5, e6, e7⟩ := idx_facts ⟨(i 0).val / 10000, hlt⟩
  refine ⟨⟨(i 0).val / 10000, hlt⟩, flush1_3 _, ?_⟩
  rw [mem_blk]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, hlt⟩ (1 : Fin 2) * 128 ≤ (i 1).val
      ∧ (i 1).val < win1_3.index ⟨(i 0).val / 10000, hlt⟩ (1 : Fin 2) * 128 + 128
    rw [e7]; omega

/-- THE ARRAY after the call: the layer's function of the three arrays as the call finds them. -/
theorem final (c : Dev nD) :
    (dat1 V c).arrAt 3 cfg1.N = proj (biasRelu (V c main_v48) (V c main_v49)) (V c main_arg4) :=
  (dat1 V c).arrAt_eq_of_cover 3 (proj (biasRelu (V c main_v48) (V c main_v49)) (V c main_arg4))
    (fun t _ => flushed_eq V c t) cover

end Cert.KernelIdeal.Layer1

end
-- ==== Proof.Layer2.lean ====
/-
  The output projection, `relu (agg2 + b2) · Wfc + bfc`, as the third pallas_call leaves it.

  Point `t` of five stages rows `10000 t … 10000 t + 9999` of the aggregated features, the two one-row biases and the
  whole weight matrix; adds the first bias to every row, takes the maximum with zero, multiplies by the weights (the
  bf16 casts are the identity over the extended reals, the product into a zero accumulator the plain sum over the
  contracted axis), adds the second bias to every row, and writes the rows back. Row `r` of the result depends on row
  `r` of the input only, and the five blocks tile the array: the result is `addRow (proj (biasRelu · ·) ·) ·` of the
  four arrays as the call finds them.
-/
import proofs.«121398_j78795470013089_1_alg».proof.Proof.Gen.KernelIdeal.Frame
import proofs.«121398_j78795470013089_1_alg».proof.Proof.LibPlainDot
import proofs.«121398_j78795470013089_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offs_zero : (![0, 0] : Fin 2 → Nat) = fun _ => 0 := funext fun a => by fin_cases a <;> rfl

/-- A one-row bias laid down the block's rows, read at an entry. -/
theorem row_apply (x : Vec Ideal S1x128 .f32) (p : Fin 10000) (q : Fin 128) :
    broadcastTo S10000x128 (shapeCast S1x128 x shapeCasts_S1x128_S1x128) broadcasts_S1x128_S10000x128 (ix2 p q)
      = x (ix2 (0 : Fin 1) q) := by
  simp only [shapeCast_self]
  exact broadcastTo_apply x broadcasts_S1x128_S10000x128 (ix2 p q) (ix2 (0 : Fin 1) q) (fun a => by
    match a with
    | ⟨0, _⟩ => rfl
    | ⟨1, _⟩ => rfl)

/-- The rectified, biased block at an entry. -/
theorem act_apply (x0 : Vec Ideal S10000x128 .f32) (x1 : Vec Ideal S1x128 .f32) (p : Fin 10000) (k : Fin 128) :
    maximumf (F := Ideal) (addf (F := Ideal) (shapeCast S10000x128 x0 shapeCasts_S10000x128_S10000x128)
        (broadcastTo S10000x128 (shapeCast S1x128 x1 shapeCasts_S1x128_S1x128) broadcasts_S1x128_S10000x128))
      (broadcast S10000x128 (Scalar.ofBits (F := Ideal) .f32 0x00000000#32)) (ix2 p k)
      = max (x0 (ix2 p k) + x1 (ix2 (0 : Fin 1) k)) 0 := by
  show max (shapeCast S10000x128 x0 shapeCasts_S10000x128_S10000x128 (ix2 p k)
      + broadcastTo S10000x128 (shapeCast S1x128 x1 shapeCasts_S1x128_S1x128) broadcasts_S1x128_S10000x128 (ix2 p k))
      (Ideal.ofBits .f32 0x00000000#32) = _
  rw [Ideal.ofBits_zero_f32, row_apply x1 p k, shapeCast_self]

/-- One block's result at an entry: the sum over the contracted axis of the block's rectified, biased row times the
    weight's column, plus the second bias at the column. -/
theorem block_apply (x0 : Vec Ideal S10000x128 .f32) (x1 : Vec Ideal S1x128 .f32) (x2 : Vec Ideal S128x128 .f32)
    (x3 : Vec Ideal S1x128 .f32) (p : Fin 10000) (q : Fin 128) :
    k2_pay1 x0 x1 x2 x3 (ix2 p q)
      = (∑ k : Fin 128, max (x0 (ix2 p k) + x1 (ix2 (0 : Fin 1) k)) 0 * x2 (ix2 k q)) + x3 (ix2 (0 : Fin 1) q) := by
  unfold k2_pay1
  refine congrArg₂ (· + ·) ?_ (row_apply x3 p q)
  refine (Cert.Lib.PlainDot.matmul_zero_apply (M := 10000) (K := 128) (N := 128) none _ _ p q).trans ?_
  refine Finset.sum_congr rfl fun k _ => ?_
  exact congrArg (· * x2 (ix2 k q)) (act_apply x0 x1 p k)

/-- The printed index maps over the grid: the input's and the result's blocks move together down the rows; the biases
    and the weight are always their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT `t` WRITES BACK is block `t` of the layer's function of the four arrays as the call finds them. -/
theorem flushed_eq (c : Dev nD) (t : Fin cfg2.N) :
    (dat2 V c).flushed 4 t = ((cfg2.win 4).blk t).view.read (Elt Ideal)
      (addRow (proj (biasRelu (V c main_v62) (V c main_v63)) (V c main_arg6)) (V c main_v64)) := by
  show (cfg2.win 4).cut (grid2.coords t) ((dat2 V c).after 4 t) = _
  rw [after2_4]
  unfold out2_4
  rw [View.canon_unit_zero offs_zero]
  simp only [View.ld_unit_zero (S := S10000x128) offs_zero, View.ld_unit_zero (S := S128x128) offs_zero,
    View.ld_unit_zero (S := S1x128) offs_zero]
  obtain ⟨e0, e1, e2, e3, e4, e5, e6, e7, e8, e9⟩ := idx_facts t
  funext j
  show k2_pay1 (iblk2 V c 0 t) (iblk2 V c 1 t) (iblk2 V c 2 t) (iblk2 V c 3 t) j
    = addRow (proj (biasRelu (V c main_v62) (V c main_v63)) (V c main_arg6)) (V c main_v64) (((cfg2.win 4).blk t).view.emb j)
  have hj : j = ix2 (n0 := 10000) (n1 := 128) (j 0) (j 1) := eq_ix2 (n0 := 10000) (n1 := 128) j
  refine (congrArg (k2_pay1 (iblk2 V c 0 t) (iblk2 V c 1 t) (iblk2 V c 2 t) (iblk2 V c 3 t)) hj).trans ?_
  refine (block_apply (iblk2 V c 0 t) (iblk2 V c 1 t) (iblk2 V c 2 t) (iblk2 V c 3 t) (j 0) (j 1)).trans ?_
  unfold addRow proj biasRelu
  have h3 : iblk2 V c 3 t (ix2 (n0 := 1) (n1 := 128) (0 : Fin 1) (j 1))
      = V c main_v64 (ix2 (n0 := 1) (n1 := 128) (0 : Fin 1) ((((cfg2.win 4).blk t).view.emb j) 1)) := by
    show V c main_v64 (((cfg2.win 3).blk t).view.emb (ix2 (n0 := 1) (n1 := 128) (0 : Fin 1) (j 1))) = _
    refine congrArg (V c main_v64) (funext fun a => Fin.ext ?_)
    match a with
    | ⟨0, _⟩ => show win2_3.index t (0 : Fin 2) * 1 + 1 * 0 = 0; omega
    | ⟨1, _⟩ => show win2_3.index t (1 : Fin 2) * 128 + 1 * (j 1).val = win2_4.index t (1 : Fin 2) * 128 + 1 * (j 1).val; omega
  refine congrArg₂ (· + ·) (Finset.sum_congr rfl fun k _ => ?_) h3
  have h0 : iblk2 V c 0 t (ix2 (n0 := 10000) (n1 := 128) (j 0) k)
      = V c main_v62 (ix2 (n0 := 50000) (n1 := 128) ((((cfg2.win 4).blk t).view.emb j) 0) k) := by
    show V c main_v62 (((cfg2.win 0).blk t).view.emb (ix2 (n0 := 10000) (n1 := 128) (j 0) k)) = _
    refine congrArg (V c main_v62) (funext fun a => Fin.ext ?_)
    match a with
    | ⟨0, _⟩ => show win2_0.index t (0 : Fin 2) * 10000 + 1 * (j 0).val = win2_4.index t (0 : Fin 2) * 10000 + 1 * (j 0).val; omega
    | ⟨1, _⟩ => show win2_0.index t (1 : Fin 2) * 128 + 1 * k.val = k.val; omega
  have h1 : iblk2 V c 1 t (ix2 (n0 := 1) (n1 := 128) (0 : Fin 1) k)
      = V c main_v63 (ix2 (n0 := 1) (n1 := 128) (0 : Fin 1) k) := by
    show V c main_v63 (((cfg2.win 1).blk t).view.emb (ix2 (n0 := 1) (n1 := 128) (0 : Fin 1) k)) = _
    refine congrArg (V c main_v63) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  have h2 : iblk2 V c 2 t (ix2 (n0 := 128) (n1 := 128) k (j 1))
      = V c main_arg6 (ix2 (n0 := 128) (n1 := 128) k ((((cfg2.win 4).blk t).view.emb j) 1)) := by
    show V c main_arg6 (((cfg2.win 2).blk t).view.emb (ix2 (n0 := 128) (n1 := 128) k (j 1))) = _
    refine congrArg (V c main_arg6) (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_4.index t (1 : Fin 2) * 128 + 1 * (j 1).val; omega
  rw [h0, h1, h2]

/-- An index of the result array is in point `t`'s block iff each coordinate is in the block's range on its axis. -/
theorem mem_blk (t : Fin cfg2.N) (i : S50000x128.Idx) :
    i ∈ ((cfg2.win 4).blk t).view.set ↔ ∀ a : Fin 2, win2_4.index t a * S10000x128.size a ≤ (i a).val
      ∧ (i a).val < win2_4.index t a * S10000x128.size a + S10000x128.size a := by
  show i ∈ ((View.whole main_v65).slice (win2_4.rect t)).set ↔ _
  rw [View.set_slice_whole, Rect.mem_set_unit]
  exact Iff.rfl

/-- The five blocks of 10000 rows tile the 50000 rows: row `r` is in the block of point `r / 10000`. -/
theorem cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hlt : (i 0).val / 10000 < cfg2.N := by show (i 0).val / 10000 < grid2.N; rw [N_2]; omega
  obtain ⟨e0, e1, e2, e3, e4, e5, e6, e7, e8, e9⟩ := idx_facts ⟨(i 0).val / 10000, hlt⟩
  refine ⟨⟨(i 0).val / 10000, hlt⟩, flush2_4 _, ?_⟩
  rw [mem_blk]
  intro a
  match a with
  | ⟨0, _⟩ =>
    show win2_4.index ⟨(i 0).val / 10000, hlt⟩ (0 : Fin 2) * 10000 ≤ (i 0).val
      ∧ (i 0).val < win2_4.index ⟨(i 0).val / 10000, hlt⟩ (0 : Fin 2) * 10000 + 10000
    rw [e8]; show (i 0).val / 10000 * 10000 ≤ (i 0).val ∧ (i 0).val < (i 0).val / 10000 * 10000 + 10000; omega
  | ⟨1, _⟩ =>
    show win2_4.index ⟨(i 0).val / 10000, hlt⟩ (1 : Fin 2) * 128 ≤ (i 1).val
      ∧ (i 1).val < win2_4.index ⟨(i 0).val / 10000, hlt⟩ (1 : Fin 2) * 128 + 128
    rw [e9]; omega

/-- THE ARRAY after the call: the layer's function of the four arrays as the call finds them. -/
theorem final (c : Dev nD) :
    (dat2 V c).arrAt 4 cfg2.N = addRow (proj (biasRelu (V c main_v62) (V c main_v63)) (V c main_arg6)) (V c main_v64) :=
  (dat2 V c).arrAt_eq_of_cover 4 (addRow (proj (biasRelu (V c main_v62) (V c main_v63)) (V c main_arg6)) (V c main_v64))
    (fun t _ => flushed_eq V c t) cover

end Cert.KernelIdeal.Layer2

end
-- ==== Proof.RefDense.lean ====
/-
  The reference's dense steps read as the layer functions.

  The reference multiplies on the host (`dot_general`, contracting the left operand's columns with the right operand's
  rows), lays a bias vector along every row by two broadcasts (to one row, then down the rows), and rectifies by the
  maximum with a zero splat. Over the extended reals these are `proj`, `biasRelu` and `addRow` of the same arrays, the
  bias vector read as a matrix of one row.
-/
import proofs.«121398_j78795470013089_1_alg».proof.Proof.Gen.ReferenceIdeal.Read
import proofs.«121398_j78795470013089_1_alg».proof.Proof.LibPlainDot
import proofs.«121398_j78795470013089_1_alg».proof.Proof.Dense
import Idealize.ShloMosaic.Lib.Pipeline.Value
import Idealize.ShloMosaic.Lib.ValueIdx
import Idealize.ShloMosaic.PureOps.Ideal.Laws

noncomputable section

namespace Cert.ReferenceIdeal.DenseSteps

open Cert.ReferenceIdeal Cert.ReferenceIdeal.Gen Cert.ReferenceIdeal.Read Cert.Dense
open Idealize.ShloMosaic Idealize.ShloMosaic.TcCoe Idealize.ShloMosaic.ValueIdx Idealize.SL.Sem

/-- A vector of 128 entries as a matrix of one row. -/
abbrev asRow (b : FVec Ideal S128 .f32) (h : S128.ShapeCasts S1x128) : FVec Ideal S1x128 .f32 := shapeCast S1x128 b h

/-- The host's product is the projection. -/
theorem dot_eq_proj (A : FVec Ideal S50000x128 .f32) (W : FVec Ideal S128x128 .f32) :
    Host.dotGeneral (F := Ideal) dot_S50000x128_S128x128_S50000x128_1_0_0_1_n_n none A W = proj A W := by
  funext i
  obtain ⟨p, q, rfl⟩ : ∃ (p : Fin 50000) (q : Fin 128), i = ix2 p q := ⟨i 0, i 1, eq_ix2 i⟩
  unfold proj
  exact Cert.Lib.PlainDot.dotGeneral_apply (M := 50000) (K := 128) (N := 128) none _ A W p q

/-- The bias vector broadcast to one row and then down the rows, read at an entry: the vector's entry at the column. -/
theorem row_apply (b : FVec Ideal S128 .f32) (i : S50000x128.Idx) :
    broadcastInDim S50000x128 ![0, 1] bcast_S1x128_S50000x128_0_1 (broadcastInDim S1x128 ![1] bcast_S128_S1x128_1 b) i
      = b (ix1 (i 1)) := by
  rw [broadcastInDim_apply ![0, 1] bcast_S1x128_S50000x128_0_1 (broadcastInDim S1x128 ![1] bcast_S128_S1x128_1 b) i
    (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])]
  exact broadcastInDim_apply ![1] bcast_S128_S1x128_1 b (ix2 (0 : Fin 1) (i 1)) (ix1 (i 1)) (fun a => match a with
      | ⟨0, _⟩ => by show (i 1).val = if (128 : Nat) = 1 then 0 else (i 1).val; rw [if_neg (by decide)])

/-- The zero splat read at an entry. -/
theorem zero_apply (i : S50000x128.Idx) :
    broadcastInDim S50000x128 ![] bcast_S_S50000x128 (constant (F := Ideal) S_ .f32 0x00000000#32) i = 0 := by
  rw [broadcastInDim_apply ![] bcast_S_S50000x128 (constant (F := Ideal) S_ .f32 0x00000000#32) i ix0 (fun a => a.elim0)]
  exact Ideal.ofBits_zero_f32

/-- The bias laid along every row and added, then the maximum with the zero splat. -/
theorem relu_bias_eq (A : FVec Ideal S50000x128 .f32) (b : FVec Ideal S128 .f32) (h : S128.ShapeCasts S1x128) :
    maximumf (addf A (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))
      = biasRelu A (asRow b h) := by
  funext i
  unfold biasRelu asRow
  show max (A i + broadcastInDim S50000x128 ![0, 1] bcast_S1x128_S50000x128_0_1 (broadcastInDim S1x128 ![1] bcast_S128_S1x128_1 b) i)
      (broadcastInDim S50000x128 ![] bcast_S_S50000x128 (constant (F := Ideal) S_ .f32 0x00000000#32) i)
    = max (A i + shapeCast S1x128 b h (ix2 (0 : Fin 1) (i 1))) 0
  rw [row_apply b i, zero_apply i, shapeCast_apply b h (ix2 (0 : Fin 1) (i 1)) (ix1 (i 1)) (by
    rw [Shape.rowMajor_val_two, Shape.rowMajor_val_one]; show (i 1).val = 0 * 128 + (i 1).val; omega)]

/-- The bias laid along every row and added. -/
theorem add_bias_eq (A : FVec Ideal S50000x128 .f32) (b : FVec Ideal S128 .f32) (h : S128.ShapeCasts S1x128) :
    addf A (broadcastInDim S50000x128 ![0, 1] bcast_S1x128_S50000x128_0_1 (broadcastInDim S1x128 ![1] bcast_S128_S1x128_1 b))
      = addRow A (asRow b h) := by
  funext i
  unfold addRow asRow
  show A i + broadcastInDim S50000x128 ![0, 1] bcast_S1x128_S50000x128_0_1 (broadcastInDim S1x128 ![1] bcast_S128_S1x128_1 b) i
    = A i + shapeCast S1x128 b h (ix2 (0 : Fin 1) (i 1))
  rw [row_apply b i, shapeCast_apply b h (ix2 (0 : Fin 1) (i 1)) (ix1 (i 1)) (by
    rw [Shape.rowMajor_val_two, Shape.rowMajor_val_one]; show (i 1).val = 0 * 128 + (i 1).val; omega)]

/-! ## The reference's stages as layers and aggregations -/

/-- The neighbourhood aggregation both layers share: gather the rows of `h` at the (wrapped) source nodes `s`, scale
    edge `e`'s row by `nrm e`, and add it into the row of its destination node `d e`, from zero. It is kept as the host
    operations themselves: the two programs apply the same ones, and nothing here reads them. -/
def aggregate (h : FVec Ideal S50000x128 .f32) (nrm : FVec Ideal S850000x1 .f32) (s d : IVec S850000 32) :
    FVec Ideal S50000x128 .f32 :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 d)
    (mulf (F := Ideal) (broadcastInDim S850000x128 ![0, 1] bcast_S850000x1_S850000x128_0_1 nrm)
      (Host.gather gather_S50000x128_S850000x1_S850000x128_1_0_n_n_0_1_1128 h
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s))))

variable (x0 : FVec Ideal S50000x128 .f32) (x1 : FVec Ideal S800000 .f32) (x2 : FVec Ideal S128x128 .f32)
  (x3 : FVec Ideal S128 .f32) (x4 : FVec Ideal S128x128 .f32) (x5 : FVec Ideal S128 .f32) (x6 : FVec Ideal S128x128 .f32)
  (x7 : FVec Ideal S128 .f32) (x8 : IVec S2x800000 32)

/-- The first layer's features: `x · W1`. -/
theorem stage_v35 : val_main_v35 (F := Ideal) x0 x2 = proj x0 x2 := by
  unfold val_main_v35
  exact dot_eq_proj x0 x2

/-- The first aggregation. -/
theorem stage_v48 : val_main_v48 (F := Ideal) x0 x1 x2 x8
    = aggregate (val_main_v35 (F := Ideal) x0 x2) (val_main_v36 (F := Ideal) x1 x8) (val_main_v5 (F := Ideal) x8) (val_main_v6 (F := Ideal) x8) := by
  unfold val_main_v48 val_main_v47 val_main_v46 val_main_cst_10 val_main_v45 val_main_v44 val_main_v43 val_main_v42 val_main_v41
    val_main_v40 val_main_v39 val_main_c_9 val_main_v38 val_main_v37 val_main_c_8 aggregate
  rfl

/-- The second layer's features: `relu (agg1 + b1) · W2`. -/
theorem stage_v53 (h : S128.ShapeCasts S1x128) : val_main_v53 (F := Ideal) x0 x1 x2 x3 x4 x8
    = proj (biasRelu (val_main_v48 (F := Ideal) x0 x1 x2 x8) (asRow x3 h)) x4 := by
  unfold val_main_v53 val_main_v52 val_main_v51 val_main_v50 val_main_v49 val_main_call2_v0 val_main_call2_cst
  rw [dot_eq_proj, relu_bias_eq _ _ h]

/-- The second aggregation. -/
theorem stage_v66 : val_main_v66 (F := Ideal) x0 x1 x2 x3 x4 x8
    = aggregate (val_main_v53 (F := Ideal) x0 x1 x2 x3 x4 x8) (val_main_v36 (F := Ideal) x1 x8) (val_main_v5 (F := Ideal) x8) (val_main_v6 (F := Ideal) x8) := by
  unfold val_main_v66 val_main_v65 val_main_v64 val_main_cst_13 val_main_v63 val_main_v62 val_main_v61 val_main_v60 val_main_v59
    val_main_v58 val_main_v57 val_main_c_12 val_main_v56 val_main_v55 val_main_c_11 val_main_v54 val_main_v36 aggregate
  rfl

/-- The result: `relu (agg2 + b2) · Wfc + bfc`. -/
theorem stage_v74 (h : S128.ShapeCasts S1x128) : val_main_v74 (F := Ideal) x0 x1 x2 x3 x4 x5 x6 x7 x8
    = addRow (proj (biasRelu (val_main_v66 (F := Ideal) x0 x1 x2 x3 x4 x8) (asRow x5 h)) x6) (asRow x7 h) := by
  unfold val_main_v74 val_main_v73 val_main_v72 val_main_v71 val_main_v70 val_main_v69 val_main_v68 val_main_v67
    val_main_call3_v0 val_main_call3_cst
  rw [dot_eq_proj, relu_bias_eq _ _ h, add_bias_eq _ _ h]

/-! ## The edge normalisation -/

/-- The inverse square roots of the degrees, zero where the degree is not positive: where `p15` holds the degree is
    kept, elsewhere replaced by one; the inverse square root is kept where `p13` holds, elsewhere replaced by zero. -/
def dinvOf (p13 p15 : IVec S50000 1) (deg : FVec Ideal S50000 .f32) (one : FVec Ideal S_ .f32) : FVec Ideal S50000 .f32 :=
  select p13
    (Host.rsqrt (F := Ideal) (select p15 deg (broadcastInDim S50000 ![] bcast_S_S50000 (id one))))
    (broadcastInDim S50000 ![] bcast_S_S50000 (id (constant (F := Ideal) S_ .f32 0x00000000#32)))

/-- Every edge's normalisation, as a column: the inverse square root at its (wrapped) source, its weight, the inverse
    square root at its (wrapped) destination. -/
def normOf (dinv : FVec Ideal S50000 .f32) (w : FVec Ideal S850000 .f32) (s d : IVec S850000 32) : FVec Ideal S850000x1 .f32 :=
  broadcastInDim S850000x1 ![0] bcast_S850000_S850000x1_0
    (mulf (F := Ideal)
      (mulf (F := Ideal)
        (Host.gather gather_S50000_S850000x1_S850000_n_0_n_n_0_1_1 dinv
          (broadcastInDim S850000x1 ![0] bcast_S850000_S850000x1_0
            (select (cmpi .slt s (broadcastInDim S850000 ![] bcast_S_S850000 (constantI S_ 32 0#32)))
              (addi s (broadcastInDim S850000 ![] bcast_S_S850000 (constantI S_ 32 50000#32))) s)))
        w)
      (Host.gather gather_S50000_S850000x1_S850000_n_0_n_n_0_1_1 dinv
        (broadcastInDim S850000x1 ![0] bcast_S850000_S850000x1_0
          (select (cmpi .slt d (broadcastInDim S850000 ![] bcast_S_S850000 (constantI S_ 32 0#32)))
            (addi d (broadcastInDim S850000 ![] bcast_S_S850000 (constantI S_ 32 50000#32))) d))))

/-- The reference's inverse square roots. -/
theorem stage_v18 : val_main_v18 (F := Ideal) x1 x8
    = dinvOf (val_main_v13 (F := Ideal) x1 x8) (val_main_v15 (F := Ideal) x1 x8) (val_main_v11 (F := Ideal) x1 x8) (val_main_cst_3 (F := Ideal)) := by
  unfold val_main_v18 val_main_call1_v1 val_main_call1_v0 val_main_cst_4 val_main_v17 val_main_v16 val_main_call0_v1
    val_main_call0_v0 dinvOf
  rfl

/-- The reference's edge normalisation. -/
theorem stage_v36 : val_main_v36 (F := Ideal) x1 x8
    = normOf (val_main_v18 (F := Ideal) x1 x8) (val_main_v8 (F := Ideal) x1) (val_main_v5 (F := Ideal) x8) (val_main_v6 (F := Ideal) x8) := by
  unfold val_main_v36 val_main_v34 val_main_v33 val_main_v32 val_main_v31 val_main_v30 val_main_v29 val_main_c_7 val_main_v28
    val_main_v27 val_main_c_6 val_main_v26 val_main_v25 val_main_v24 val_main_v23 val_main_v22 val_main_v21 val_main_c_5
    val_main_v20 val_main_v19 val_main_c normOf
  rfl

end Cert.ReferenceIdeal.DenseSteps

end
-- ==== Proof.Boundary.lean ====
/-
  The result array of the kernel's program, boundary by boundary, as the reference's own stages.

  The program is host operations, then three pallas_calls with host operations between them. At each boundary the
  buffers that later steps read are named as the reference's stages at the launch arguments: the edge normalisation
  and the two index vectors after the first stretch of host operations; `x · W1` after the first call; the first
  aggregation after the next stretch; `relu (agg1 + b1) · W2` after the second call; the second aggregation; and the
  result after the third call. The host operations between the calls are the reference's own, so they are carried as
  they stand; only the three calls are read, as the layer functions.
-/
import proofs.«121398_j78795470013089_1_alg».proof.Proof.Gen.KernelIdeal.Frame
import proofs.«121398_j78795470013089_1_alg».proof.Proof.Gen.ReferenceIdeal.Read
import proofs.«121398_j78795470013089_1_alg».proof.Proof.Layer0
import proofs.«121398_j78795470013089_1_alg».proof.Proof.Layer1
import proofs.«121398_j78795470013089_1_alg».proof.Proof.Layer2
import proofs.«121398_j78795470013089_1_alg».proof.Proof.RefDense
import Idealize.ShloMosaic.Lib.StableHlo.Run

set_option maxRecDepth 16384

noncomputable section

namespace Cert.KernelIdeal.Boundary

open Cert.KernelIdeal Cert.KernelIdeal.Gen Cert.Dense
open Idealize.ShloMosaic Idealize.ShloMosaic.TcCoe Idealize.ShloMosaic.ValueIdx Idealize.SL.Sem Idealize.ShloMosaic.StableHlo
open Cert.ReferenceIdeal.Read
open Cert.ReferenceIdeal.DenseSteps (aggregate asRow dinvOf normOf)

variable (m : (ℓ : Loc nD τ sig) → Buf (Elt Ideal) ℓ) (ρ : Dev nD → PrngReg)

/-! ## The launch arguments, by name -/

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)

/-! ## The first stretch of host operations: index vectors, edge weights with self loops, degrees -/

section FirstStretch
variable (U : Valuation τ sig (Elt Ideal))

/-- The source nodes, with the self loops appended. -/
theorem first_v5 : after hostOps0 U (Proc.devRef .tc main_v5) = val_main_v5 (F := Ideal) (U (Proc.devRef .tc main_arg8)) := by
  dsimp only [hostOps0]
  after_results
  rfl

/-- The destination nodes, with the self loops appended. -/
theorem first_v6 : after hostOps0 U (Proc.devRef .tc main_v6) = val_main_v6 (F := Ideal) (U (Proc.devRef .tc main_arg8)) := by
  dsimp only [hostOps0]
  after_results
  rfl

/-- The edge weights, with the self loops' ones appended. -/
theorem first_v8 : after hostOps0 U (Proc.devRef .tc main_v8) = val_main_v8 (F := Ideal) (U (Proc.devRef .tc main_arg1)) := by
  dsimp only [hostOps0]
  after_results
  rfl

/-- The weighted in-degrees. -/
theorem first_v11 : after hostOps0 U (Proc.devRef .tc main_v11)
    = val_main_v11 (F := Ideal) (U (Proc.devRef .tc main_arg1)) (U (Proc.devRef .tc main_arg8)) := by
  dsimp only [hostOps0]
  after_results
  rfl

/-- Which nodes have a positive degree (read where the inverse square root is kept). -/
theorem first_v13 : after hostOps0 U (Proc.devRef .tc main_v13)
    = val_main_v13 (F := Ideal) (U (Proc.devRef .tc main_arg1)) (U (Proc.devRef .tc main_arg8)) := by
  dsimp only [hostOps0]
  after_results
  rfl

/-- Which nodes have a positive degree (read where the degree is replaced by one). -/
theorem first_v15 : after hostOps0 U (Proc.devRef .tc main_v15)
    = val_main_v15 (F := Ideal) (U (Proc.devRef .tc main_arg1)) (U (Proc.devRef .tc main_arg8)) := by
  dsimp only [hostOps0]
  after_results
  rfl

/-- The constant one. -/
theorem first_cst_3 : after hostOps0 U (Proc.devRef .tc main_cst_3) = val_main_cst_3 (F := Ideal) := by
  dsimp only [hostOps0]
  after_results
  rfl

end FirstStretch

/-! ## The four stretches up to the first call: the symmetric normalisation of every edge -/

section Normalisation
variable (U : Valuation τ sig (Elt Ideal))

/-- The inverse square roots of the degrees, zero where the degree is not positive, after the three short stretches. -/
theorem dinv_of_stretches : after hostOps0_3 (after hostOps0_2 (after hostOps0_1 U)) (Proc.devRef .tc main_v18)
    = dinvOf (U (Proc.devRef .tc main_v13)) (U (Proc.devRef .tc main_v15)) (U (Proc.devRef .tc main_v11)) (U (Proc.devRef .tc main_cst_3)) := by
  dsimp only [hostOps0_1, hostOps0_2, hostOps0_3]
  after_results_simp
  rfl

/-- The edge normalisation `dinv[src] · w · dinv[dst]`, as a column, after the last stretch before the first call. -/
theorem norm_of_stretch : after hostOps0_4 U (Proc.devRef .tc main_v35)
    = normOf (U (Proc.devRef .tc main_v18)) (U (Proc.devRef .tc main_v8)) (U (Proc.devRef .tc main_v5)) (U (Proc.devRef .tc main_v6)) := by
  dsimp only [hostOps0_4]
  after_results_simp
  rfl

/-- The three short stretches write neither index vector, nor the weights, nor any argument. -/
theorem kept_short (b : Ref sig .tc)
    (hb : b = main_v5 ∨ b = main_v6 ∨ b = main_v8 ∨ b = main_arg0 ∨ b = main_arg2 ∨ b = main_arg3 ∨ b = main_arg4 ∨ b = main_arg5
      ∨ b = main_arg6 ∨ b = main_arg7) :
    after hostOps0_3 (after hostOps0_2 (after hostOps0_1 U)) (Proc.devRef .tc b) = U (Proc.devRef .tc b) := by
  rcases hb with rfl | rfl | rfl | rfl | rfl | rfl | rfl | rfl | rfl | rfl <;>
    (dsimp only [hostOps0_1, hostOps0_2, hostOps0_3]; after_results_simp)

/-- The last stretch before the first call writes neither index vector nor any argument. -/
theorem kept_last (b : Ref sig .tc)
    (hb : b = main_v5 ∨ b = main_v6 ∨ b = main_arg0 ∨ b = main_arg2 ∨ b = main_arg3 ∨ b = main_arg4 ∨ b = main_arg5
      ∨ b = main_arg6 ∨ b = main_arg7) :
    after hostOps0_4 U (Proc.devRef .tc b) = U (Proc.devRef .tc b) := by
  rcases hb with rfl | rfl | rfl | rfl | rfl | rfl | rfl | rfl | rfl <;> (dsimp only [hostOps0_4]; after_results_simp)

end Normalisation

/-- The first stretch writes no argument. -/
theorem first_kept (U : Valuation τ sig (Elt Ideal)) (b : Ref sig .tc)
    (hb : b = main_arg0 ∨ b = main_arg2 ∨ b = main_arg3 ∨ b = main_arg4 ∨ b = main_arg5 ∨ b = main_arg6 ∨ b = main_arg7) :
    after hostOps0 U (Proc.devRef .tc b) = U (Proc.devRef .tc b) := by
  rcases hb with rfl | rfl | rfl | rfl | rfl | rfl | rfl <;> (dsimp only [hostOps0]; after_results_simp)

/-! ## What every later step reads of the prelude, carried unchanged through the calls and the stretches -/

/-- The edge normalisation (as a column), the two index vectors and the layers' parameters, at a boundary `U`. -/
def Carried (c : Dev nD) (U : Valuation τ sig (Elt Ideal)) : Prop :=
  U (Proc.devRef .tc main_v35) = val_main_v36 (F := Ideal) (a1 m c) (a8 m c)
  ∧ U (Proc.devRef .tc main_v5) = val_main_v5 (F := Ideal) (a8 m c)
  ∧ U (Proc.devRef .tc main_v6) = val_main_v6 (F := Ideal) (a8 m c)
  ∧ U (Proc.devRef .tc main_arg3) = a3 m c
  ∧ U (Proc.devRef .tc main_arg4) = a4 m c
  ∧ U (Proc.devRef .tc main_arg5) = a5 m c
  ∧ U (Proc.devRef .tc main_arg6) = a6 m c
  ∧ U (Proc.devRef .tc main_arg7) = a7 m c

/-- An argument when the first call is entered. -/
theorem arg_at_5 (c : Dev nD) (b : Ref sig .tc)
    (hb : b = main_arg0 ∨ b = main_arg2 ∨ b = main_arg3 ∨ b = main_arg4 ∨ b = main_arg5 ∨ b = main_arg6 ∨ b = main_arg7) :
    W5 m ρ c (Proc.devRef .tc b) = m ((c.tc : Thread nD τ).loc b) := by
  show after hostOps0_4 (after hostOps0_3 (after hostOps0_2 (after hostOps0_1 (after hostOps0 (W0 m ρ c))))) (Proc.devRef .tc b) = _
  rw [kept_last _ b (Or.inr (Or.inr hb)), kept_short _ b (Or.inr (Or.inr (Or.inr hb))), first_kept _ b hb]

/-- When the first call is entered. -/
theorem carried_5 (c : Dev nD) : Carried m c (W5 m ρ c) := by
  have e1 : W0 m ρ c (Proc.devRef .tc main_arg1) = a1 m c := rfl
  have e8 : W0 m ρ c (Proc.devRef .tc main_arg8) = a8 m c := rfl
  refine ⟨?_, ?_, ?_, arg_at_5 m ρ c main_arg3 (Or.inr (Or.inr (Or.inl rfl))), arg_at_5 m ρ c main_arg4 (Or.inr (Or.inr (Or.inr (Or.inl rfl)))), arg_at_5 m ρ c main_arg5 (Or.inr (Or.inr (Or.inr (Or.inr (Or.inl rfl))))),
    arg_at_5 m ρ c main_arg6 (Or.inr (Or.inr (Or.inr (Or.inr (Or.inr (Or.inl rfl)))))), arg_at_5 m ρ c main_arg7 (Or.inr (Or.inr (Or.inr (Or.inr (Or.inr (Or.inr (rfl)))))))⟩
  · show after hostOps0_4 (after hostOps0_3 (after hostOps0_2 (after hostOps0_1 (after hostOps0 (W0 m ρ c))))) (Proc.devRef .tc main_v35) = _
    rw [norm_of_stretch, dinv_of_stretches, kept_short _ main_v8 (Or.inr (Or.inr (Or.inl rfl))), kept_short _ main_v5 (Or.inl rfl),
      kept_short _ main_v6 (Or.inr (Or.inl rfl)), first_v5, first_v6, first_v8, first_v11, first_v13, first_v15, first_cst_3, e1, e8,
      Cert.ReferenceIdeal.DenseSteps.stage_v36, Cert.ReferenceIdeal.DenseSteps.stage_v18]
  · show after hostOps0_4 (after hostOps0_3 (after hostOps0_2 (after hostOps0_1 (after hostOps0 (W0 m ρ c))))) (Proc.devRef .tc main_v5) = _
    rw [kept_last _ main_v5 (Or.inl rfl), kept_short _ main_v5 (Or.inl rfl), first_v5, e8]
  · show after hostOps0_4 (after hostOps0_3 (after hostOps0_2 (after hostOps0_1 (after hostOps0 (W0 m ρ c))))) (Proc.devRef .tc main_v6) = _
    rw [kept_last _ main_v6 (Or.inr (Or.inl rfl)), kept_short _ main_v6 (Or.inr (Or.inl rfl)), first_v6, e8]

/-! ## The first call: `x · W1` -/

/-- A call leaves every buffer that is not one of its arrays as it found it. -/
theorem carried_6 (c : Dev nD) : Carried m c (W6 m ρ c) := by
  obtain ⟨h1, h2, h3, h4, h5, h6, h7, h8⟩ := carried_5 m ρ c
  exact ⟨(W6_of_ne m ρ c main_v35 (by decide)).trans h1, (W6_of_ne m ρ c main_v5 (by decide)).trans h2,
    (W6_of_ne m ρ c main_v6 (by decide)).trans h3, (W6_of_ne m ρ c main_arg3 (by decide)).trans h4,
    (W6_of_ne m ρ c main_arg4 (by decide)).trans h5, (W6_of_ne m ρ c main_arg5 (by decide)).trans h6,
    (W6_of_ne m ρ c main_arg6 (by decide)).trans h7, (W6_of_ne m ρ c main_arg7 (by decide)).trans h8⟩

/-- The first layer's features after the first call. -/
theorem feat0_at_6 (c : Dev nD) :
    W6 m ρ c (Proc.devRef .tc main_v36) = val_main_v35 (F := Ideal) (a0 m c) (a2 m c) := by
  refine (W6_arr m ρ c 2).trans ((Layer0.final (V5 m ρ) c).trans ?_)
  rw [show V5 m ρ c main_arg0 = a0 m c from arg_at_5 m ρ c main_arg0 (Or.inl rfl),
    show V5 m ρ c main_arg2 = a2 m c from arg_at_5 m ρ c main_arg2 (Or.inr (Or.inl rfl))]
  exact (Cert.ReferenceIdeal.DenseSteps.stage_v35 _ _).symm

/-! ## The stretch between the first two calls: the first aggregation -/

section Stretch1
variable (U : Valuation τ sig (Elt Ideal))

/-- The first aggregation, from the features, the normalisation and the index vectors the stretch finds. -/
theorem agg_of_stretch1 : after hostOps1 U (Proc.devRef .tc main_v48)
    = aggregate (U (Proc.devRef .tc main_v36)) (U (Proc.devRef .tc main_v35)) (U (Proc.devRef .tc main_v5)) (U (Proc.devRef .tc main_v6)) := by
  dsimp only [hostOps1]
  after_results_simp
  rfl

/-- The first bias as a matrix of one row. -/
theorem bias_of_stretch1 : after hostOps1 U (Proc.devRef .tc main_v49) = asRow (U (Proc.devRef .tc main_arg3)) shapeCasts_S128_S1x128 := by
  dsimp only [hostOps1]
  after_results_simp
  rfl

/-- The stretch writes none of what is carried. -/
theorem kept_stretch1 (b : Ref sig .tc)
    (hb : b = main_v35 ∨ b = main_v5 ∨ b = main_v6 ∨ b = main_arg3 ∨ b = main_arg4 ∨ b = main_arg5 ∨ b = main_arg6 ∨ b = main_arg7) :
    after hostOps1 U (Proc.devRef .tc b) = U (Proc.devRef .tc b) := by
  rcases hb with rfl | rfl | rfl | rfl | rfl | rfl | rfl | rfl <;> (dsimp only [hostOps1]; after_results_simp)

end Stretch1

theorem carried_7 (c : Dev nD) : Carried m c (W7 m ρ c) := by
  obtain ⟨h1, h2, h3, h4, h5, h6, h7, h8⟩ := carried_6 m ρ c
  exact ⟨(kept_stretch1 (W6 m ρ c) main_v35 (Or.inl rfl)).trans h1, (kept_stretch1 (W6 m ρ c) main_v5 (Or.inr (Or.inl rfl))).trans h2,
    (kept_stretch1 (W6 m ρ c) main_v6 (Or.inr (Or.inr (Or.inl rfl)))).trans h3, (kept_stretch1 (W6 m ρ c) main_arg3 (Or.inr (Or.inr (Or.inr (Or.inl rfl))))).trans h4,
    (kept_stretch1 (W6 m ρ c) main_arg4 (Or.inr (Or.inr (Or.inr (Or.inr (Or.inl rfl)))))).trans h5, (kept_stretch1 (W6 m ρ c) main_arg5 (Or.inr (Or.inr (Or.inr (Or.inr (Or.inr (Or.inl rfl))))))).trans h6,
    (kept_stretch1 (W6 m ρ c) main_arg6 (Or.inr (Or.inr (Or.inr (Or.inr (Or.inr (Or.inr (Or.inl rfl)))))))).trans h7, (kept_stretch1 (W6 m ρ c) main_arg7 (Or.inr (Or.inr (Or.inr (Or.inr (Or.inr (Or.inr (Or.inr (rfl))))))))).trans h8⟩

/-- The first aggregation when the second call is entered. -/
theorem agg1_at_7 (c : Dev nD) :
    W7 m ρ c (Proc.devRef .tc main_v48) = val_main_v48 (F := Ideal) (a0 m c) (a1 m c) (a2 m c) (a8 m c) := by
  obtain ⟨h1, h2, h3, -⟩ := carried_6 m ρ c
  refine (agg_of_stretch1 (W6 m ρ c)).trans ?_
  rw [feat0_at_6 m ρ c, h1, h2, h3]
  exact (Cert.ReferenceIdeal.DenseSteps.stage_v48 _ _ _ _).symm

/-- The first bias when the second call is entered. -/
theorem bias1_at_7 (c : Dev nD) : W7 m ρ c (Proc.devRef .tc main_v49) = asRow (a3 m c) shapeCasts_S128_S1x128 := by
  obtain ⟨-, -, -, h4, -⟩ := carried_6 m ρ c
  refine (bias_of_stretch1 (W6 m ρ c)).trans ?_
  rw [h4]

/-! ## The second call: `relu (agg1 + b1) · W2` -/

theorem carried_8 (c : Dev nD) : Carried m c (W8 m ρ c) := by
  obtain ⟨h1, h2, h3, h4, h5, h6, h7, h8⟩ := carried_7 m ρ c
  exact ⟨(W8_of_ne m ρ c main_v35 (by decide)).trans h1, (W8_of_ne m ρ c main_v5 (by decide)).trans h2,
    (W8_of_ne m ρ c main_v6 (by decide)).trans h3, (W8_of_ne m ρ c main_arg3 (by decide)).trans h4,
    ((W8_arr m ρ c 2).trans (((dat1 (V7 m ρ) c).arrAt_in 2 rfl _).trans (A_eq1 (V7 m ρ) c 2))).trans h5,
    (W8_of_ne m ρ c main_arg5 (by decide)).trans h6,
    (W8_of_ne m ρ c main_arg6 (by decide)).trans h7, (W8_of_ne m ρ c main_arg7 (by decide)).trans h8⟩

/-- The second layer's features after the second call. -/
theorem feat1_at_8 (c : Dev nD) :
    W8 m ρ c (Proc.devRef .tc main_v50)
      = val_main_v53 (F := Ideal) (a0 m c) (a1 m c) (a2 m c) (a3 m c) (a4 m c) (a8 m c) := by
  obtain ⟨-, -, -, -, h5, -⟩ := carried_7 m ρ c
  refine (W8_arr m ρ c 3).trans ((Layer1.final (V7 m ρ) c).trans ?_)
  rw [show V7 m ρ c main_v48 = _ from agg1_at_7 m ρ c, show V7 m ρ c main_v49 = _ from bias1_at_7 m ρ c,
    show V7 m ρ c main_arg4 = a4 m c from h5]
  exact (Cert.ReferenceIdeal.DenseSteps.stage_v53 _ _ _ _ _ _ _).symm

/-! ## The stretch between the last two calls: the second aggregation -/

section Stretch2
variable (U : Valuation τ sig (Elt Ideal))

/-- The second aggregation, from the features, the normalisation and the index vectors the stretch finds. -/
theorem agg_of_stretch2 : after hostOps2 U (Proc.devRef .tc main_v62)
    = aggregate (U (Proc.devRef .tc main_v50)) (U (Proc.devRef .tc main_v35)) (U (Proc.devRef .tc main_v5)) (U (Proc.devRef .tc main_v6)) := by
  dsimp only [hostOps2]
  after_results_simp
  rfl

/-- The second bias as a matrix of one row. -/
theorem bias_of_stretch2 : after hostOps2 U (Proc.devRef .tc main_v63) = asRow (U (Proc.devRef .tc main_arg5)) shapeCasts_S128_S1x128 := by
  dsimp only [hostOps2]
  after_results_simp
  rfl

/-- The output bias as a matrix of one row. -/
theorem outBias_of_stretch2 : after hostOps2 U (Proc.devRef .tc main_v64) = asRow (U (Proc.devRef .tc main_arg7)) shapeCasts_S128_S1x128 := by
  dsimp only [hostOps2]
  after_results_simp
  rfl

/-- The stretch does not write the output weights. -/
theorem kept_stretch2 : after hostOps2 U (Proc.devRef .tc main_arg6) = U (Proc.devRef .tc main_arg6) := by
  dsimp only [hostOps2]
  after_results_simp

end Stretch2

/-! ## The third call: `relu (agg2 + b2) · Wfc + bfc`, the result -/

/-- THE RESULT ARRAY of the kernel's program is the reference's last stage at the launch arguments. -/
theorem result (c : Dev nD) :
    W10 m ρ c (Proc.devRef .tc main_v65)
      = val_main_v74 (F := Ideal) (a0 m c) (a1 m c) (a2 m c) (a3 m c) (a4 m c) (a5 m c) (a6 m c) (a7 m c) (a8 m c) := by
  obtain ⟨h1, h2, h3, -, -, h6, h7, h8⟩ := carried_8 m ρ c
  have e62 : V9 m ρ c main_v62 = val_main_v66 (F := Ideal) (a0 m c) (a1 m c) (a2 m c) (a3 m c) (a4 m c) (a8 m c) := by
    refine (agg_of_stretch2 (W8 m ρ c)).trans ?_
    rw [feat1_at_8 m ρ c, h1, h2, h3]
    exact (Cert.ReferenceIdeal.DenseSteps.stage_v66 _ _ _ _ _ _).symm
  have e63 : V9 m ρ c main_v63 = asRow (a5 m c) shapeCasts_S128_S1x128 := by
    refine (bias_of_stretch2 (W8 m ρ c)).trans ?_
    rw [h6]
  have e64 : V9 m ρ c main_v64 = asRow (a7 m c) shapeCasts_S128_S1x128 := by
    refine (outBias_of_stretch2 (W8 m ρ c)).trans ?_
    rw [h8]
  have e6 : V9 m ρ c main_arg6 = a6 m c := (kept_stretch2 (W8 m ρ c)).trans h7
  refine (W10_arr m ρ c 4).trans ((Layer2.final (V9 m ρ) c).trans ?_)
  rw [e62, e63, e64, e6]
  exact (Cert.ReferenceIdeal.DenseSteps.stage_v74 _ _ _ _ _ _ _ _ _ _).symm

end Cert.KernelIdeal.Boundary

end
-- ==== Proof.lean ====
/-
  A two-layer graph convolution: the kernel's program against its reference, over the extended reals.

  Both programs normalise the edges symmetrically (self loops added, `dinv[src] · w · dinv[dst]`), and then compute
      h1  = relu (A · (x · W1) + b1),   h2 = relu (A · (h1 · W2) + b2),   out = h2 · Wfc + bfc,
  where `A ·` is the neighbourhood aggregation (gather the source rows, scale by the edge's normalisation, add into the
  destination rows). The reference does every step on the host. The kernel's program does the aggregations on the host
  by the same operations, and the three dense steps — `x · W1`, `relu (· + b1) · W2`, `relu (· + b2) · Wfc + bfc` — in
  three pallas_calls over blocks of 10000 rows, with bf16 casts before each product. Over the extended reals a cast is
  the identity and the matrix unit's product into a zero accumulator is the host product's sum over the contracted
  axis, so each call leaves the reference's own dense step of its inputs (Layer0, Layer1, Layer2 against RefDense), the
  steps between are shared, and the two results are the same function of the arguments (Boundary). No step uses a law
  that fails at an infinity: the two sides are the same sums of the same products in the same order.

  The frames of the kernel's two programs are the generated ones; the reference's frame is its generated run with the
  result dropped; the idealisation rewrote nothing, so `preserves` is trivial.
-/
import proofs.«121398_j78795470013089_1_alg».proof.Defs
import proofs.«121398_j78795470013089_1_alg».proof.Proof.Gen.Kernel
import proofs.«121398_j78795470013089_1_alg».proof.Proof.Gen.Kernel.Skeleton
import proofs.«121398_j78795470013089_1_alg».proof.Proof.Gen.Kernel.Launch
import proofs.«121398_j78795470013089_1_alg».proof.Proof.Gen.Kernel.Points
import proofs.«121398_j78795470013089_1_alg».proof.Proof.Gen.Kernel.Frame
import proofs.«121398_j78795470013089_1_alg».proof.Proof.Gen.KernelIdeal
import proofs.«121398_j78795470013089_1_alg».proof.Proof.Gen.KernelIdeal.Skeleton
import proofs.«121398_j78795470013089_1_alg».proof.Proof.Gen.KernelIdeal.Launch
import proofs.«121398_j78795470013089_1_alg».proof.Proof.Gen.KernelIdeal.Points
import proofs.«121398_j78795470013089_1_alg».proof.Proof.Gen.KernelIdeal.Frame
import proofs.«121398_j78795470013089_1_alg».proof.Proof.Gen.ReferenceIdeal
import proofs.«121398_j78795470013089_1_alg».proof.Proof.Gen.ReferenceIdeal.Run
import proofs.«121398_j78795470013089_1_alg».proof.Proof.Gen.ReferenceIdeal.Read
import proofs.«121398_j78795470013089_1_alg».proof.Proof.Gen.Pre_finite_inputs
import proofs.«121398_j78795470013089_1_alg».proof.Proof.RunNamed
import proofs.«121398_j78795470013089_1_alg».proof.Proof.Boundary
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's last stage of the (agreeing) arguments. -/
theorem algebraic : Cert.algebraic_KernelIdeal_ReferenceIdeal := by
  intro m ρ m' ρ' _ hagree
  refine ⟨fun c => Cert.ReferenceIdeal.Read.val_main_v74 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Boundary.result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v74_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
